-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel

variable [Facts]

def fn {F : FTy → Type} [FloatOps F] (main_arg0 : FVec F S4096x16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  main_v3
-- ==== Kernel.lean ====
abbrev S4096x16384 : Shape := ⟨2, ![4096, 16384]⟩
abbrev S128x16384 : Shape := ⟨2, ![128, 16384]⟩
abbrev S128 : Shape := ⟨1, ![128]⟩
abbrev S128x1 : Shape := ⟨2, ![128, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .local _ .vmem, ⟨0, _⟩ => ⟨S128x16384, .f32⟩
  | .local _ .vmem, ⟨1, _⟩ => ⟨S128x16384, .f32⟩
  | .local _ .vmem, ⟨2, _⟩ => ⟨S128x16384, .f32⟩
  | .local _ .vmem, ⟨3, _⟩ => ⟨S128x16384, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x16384_S128x16384_0_0 : ∀ a, (![0, 0] : Fin 2 → Nat) a + S128x16384.size a ≤ S128x16384.size a
  h_S128x16384 : 0 < S128x16384.numel
  reduces_S128x16384_S128 : S128x16384.Reduces [1] S128
  shapeCasts_S128_S128x1 : S128.ShapeCasts S128x1
  natLt_1_32 : 1 < 32
  broadcasts_S128x1_S128x16384 : S128x1.Broadcasts S128x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S4096x16384.size a
  hwx0_1 : ∀ i : grid0.Coords, EltTy.bits .f32 = 32 ∨ (Rect.block (s := S4096x16384) S128x16384.size (cc0_transform_1 i) (hinb0_1 i)).WholeWords (EltTy.packing .f32)

variable [Facts₀]

abbrev win0_0 : Pipeline.Window sig grid0 :=
  Pipeline.Window.ofSpec (Memref.whole main_arg0) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S_, .f32⟩
  | .hbm, ⟨3, _⟩ => ⟨S4096x16384, .f32⟩
  | .hbm, ⟨4, _⟩ => ⟨S4096x16384, .i1⟩
  | .hbm, ⟨5, _⟩ => ⟨S_, .f32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096, .f32⟩
  | .hbm, ⟨11, _⟩ => ⟨S4096x16384, .i32⟩
  | .hbm, ⟨12, _⟩ => ⟨S_, .i32⟩
  | .hbm, ⟨13, _⟩ => ⟨S4096, .i32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096x16384, .f32⟩
  | .hbm, ⟨18, _⟩ => ⟨S4096x16384, .i1⟩
  | .hbm, ⟨19, _⟩ => ⟨S_, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .f32⟩
  | .hbm, ⟨24, _⟩ => ⟨S4096x16384, .f32⟩
  | .hbm, ⟨25, _⟩ => ⟨S4096x1, .f32⟩
  | .hbm, ⟨26, _⟩ => ⟨S4096x16384, .f32⟩
  | .hbm, ⟨27, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_cst_4 : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  reducesTo_S4096x16384_S4096_d1 : S4096x16384.ReducesTo [1] S4096
  h_S_ : 0 < S_.numel
  natLt_1_32 : 1 < 32
  bcast_S4096_S4096x1_0 : S4096.BroadcastsInDim S4096x1 (![0] : Fin 1 → Fin S4096x1.rank)
  bcast_S4096x1_S4096x16384_0_1 : S4096x1.BroadcastsInDim S4096x16384 (![0, 1] : Fin 2 → Fin S4096x16384.rank)

variable [Facts₀]

class Facts : Prop extends Facts₀ where

variable [Facts]
-- ==== Proof.RowScale.lean ====
/-
  The function both programs compute: every row of a [4096, 16384] array is replaced by its signs times one row scale.

  For a row `a` the scale is  α(a) = (Σ_k |a_k| over the entries with |a_k| > 0) / (the number of entries with |a_k| > 0),
  the number counted as a float sum of ones and zeros, and entry (r, q) of the result is  sgn(x_{r,q}) · α(row r),
  with sgn = +1 where the entry is above zero and −1 elsewhere. Everything is read at the ideal values: a float is an
  extended real, the comparison is the order's, |a| is max a (−a), the quotient is the extended reals' (an all-zero row
  divides 0 by 0 on both sides alike), and the two sums are exact sums over the row's 16384 coordinates.
-/
import Idealize.ShloMosaic.PureOps.Ideal.Laws
import Idealize.ShloMosaic.Lib.ValueIdx

noncomputable section

namespace Cert.RowScale

open Idealize.ShloMosaic Idealize.ShloMosaic.ValueIdx

/-- The float zero both programs compare against and fill with. -/
abbrev zeroF : Ideal .f32 := Scalar.ofBits (F := Ideal) .f32 0x00000000#32

/-- The mask bit of an entry: its absolute value is above zero. -/
abbrev nz (a : Ideal .f32) : BitVec 1 := FloatOps.cmpf (F := Ideal) .ogt (FloatOps.absf a) zeroF

/-- An entry's contribution to the row's sum of absolute values: |a| where the mask is set, zero elsewhere. -/
abbrev kept (a : Ideal .f32) : Ideal .f32 := Scalar.select (nz a) (FloatOps.absf a) zeroF

/-- An entry's contribution to the row's count: the mask bit widened to a 32-bit integer and turned into a float. -/
abbrev unit01 (a : Ideal .f32) : Ideal .f32 := FloatOps.sitofp (F := Ideal) .f32 ((nz a).setWidth 32)

/-- The sign both programs multiply by: +1 above zero, −1 elsewhere. -/
abbrev sgn (a : Ideal .f32) : Ideal .f32 :=
  Scalar.select (FloatOps.cmpf (F := Ideal) .ogt a zeroF) (Scalar.ofBits (F := Ideal) .f32 0x3F800000#32)
    (Scalar.ofBits (F := Ideal) .f32 0xBF800000#32)

/-- A row's scale: the sum of the kept absolute values over the count of kept entries. -/
def alpha (row : Fin 16384 → Ideal .f32) : Ideal .f32 :=
  FloatOps.divf (F := Ideal) (φ := .f32) (∑ k : Fin 16384, kept (row k)) (∑ k : Fin 16384, unit01 (row k))

/-- THE RESULT ARRAY: entry (r, q) is the sign of x(r, q) times the scale of row r. -/
def G (x : (⟨2, ![4096, 16384]⟩ : Shape).Idx → Ideal .f32) : (⟨2, ![4096, 16384]⟩ : Shape).Idx → Ideal .f32 :=
  fun i => FloatOps.mulf (F := Ideal) (φ := .f32) (sgn (x i)) (alpha fun k => x (ix2 (i 0) k))

end Cert.RowScale

end
-- ==== Proof.KernelBlock.lean ====
/-
  What the kernel body leaves in one output block is the row-scale function read through the block.

  The body sees 128 whole rows at a time. Whatever array `x` the block's rows come from — block row `p` being
  array row `r p` — the value the body stores at block entry (p, q) is the sign of x(r p, q) times the scale of
  array row r p: the body's two lane reductions are exact sums over the row's 16384 coordinates, of the kept absolute
  values and of the mask bits turned into floats, its quotient of them is the row's scale, and the scale is broadcast
  back along the row and multiplied by the signs.
-/
import proofs.«146996_j66743791780423_1_alg».proof.Proof.KernelIdealValue
import proofs.«146996_j66743791780423_1_alg».proof.Proof.RowScale

noncomputable section

namespace Cert.KernelIdeal.BlockValue

open Cert.KernelIdeal Cert.KernelIdeal.Gen Cert.KernelIdeal.Value Idealize.ShloMosaic Idealize.ShloMosaic.ValueIdx
open Cert.RowScale

/-- The block index over block row `p` at column `k`, as the lane reduction inserts the column coordinate. -/
theorem lift_eq (h : S128x16384.Reduces [1] S128) (p : Fin 128) (k : Fin 16384) : h.lift (ix1 p) k = ix2 p k :=
  funext fun a => Fin.ext (by match a with | ⟨0, _⟩ => rfl | ⟨1, _⟩ => rfl)

/-- The body's first lane reduction at block row `p`: the exact sum of the row's kept absolute values. -/
theorem block_abssum (P0 : FVec Ideal S128x16384 .f32) (h : S128x16384.Reduces [1] S128) (hφ : FKind.Formats .f32)
    (hacc : (0x00000000#32 : BitVec 32) = 0x00000000#32) (p : Fin 128) :
    multiReduction .add [1] S128 (select (cmpf .ogt (absf P0) (broadcast S128x16384 (Scalar.ofBits (F := Ideal) .f32 0x00000000#32)))
        (absf P0) (broadcast S128x16384 (Scalar.ofBits (F := Ideal) .f32 0x00000000#32))) 0x00000000#32 h hφ hacc (ix1 p)
      = ∑ k : Fin 16384, kept (P0 (ix2 p k)) := by
  refine (Ideal.multiReduction_add_single _ 0x00000000#32 h hφ hacc (ix1 p)).trans (Finset.sum_congr rfl fun k _ => ?_)
  exact congrArg (fun i => kept (P0 i)) (lift_eq h p k)

/-- The body's second lane reduction at block row `p`: the float sum of the row's mask bits. -/
theorem block_count (P0 : FVec Ideal S128x16384 .f32) (h : S128x16384.Reduces [1] S128) (hφ : FKind.Formats .f32)
    (hacc : (0x00000000#32 : BitVec 32) = 0x00000000#32) (p : Fin 128) :
    multiReduction .add [1] S128 (sitofp (F := Ideal) .f32 (extui 32 (cmpf .ogt (absf P0) (broadcast S128x16384 (Scalar.ofBits (F := Ideal) .f32 0x00000000#32)))
        natLt_1_32)) 0x00000000#32 h hφ hacc (ix1 p)
      = ∑ k : Fin 16384, unit01 (P0 (ix2 p k)) := by
  refine (Ideal.multiReduction_add_single _ 0x00000000#32 h hφ hacc (ix1 p)).trans (Finset.sum_congr rfl fun k _ => ?_)
  exact congrArg (fun i => unit01 (P0 i)) (lift_eq h p k)

/-- THE BLOCK: if block row `p` of `P0` is row `r p` of the array `x`, entry by entry, then what the body stores at block
    entry (p, q) is the row-scale function of `x` at row `r p`, column `q`. -/
theorem block_value (P0 : FVec Ideal S128x16384 .f32) (x : (⟨2, ![4096, 16384]⟩ : Shape).Idx → Ideal .f32) (r : Fin 128 → Fin 4096)
    (hP : ∀ (p : Fin 128) (k : Fin 16384), P0 (ix2 p k) = x (ix2 (r p) k)) (p : Fin 128) (q : Fin 16384) :
    E1 (F := Ideal) P0 (ix2 p q) = G x (ix2 (r p) q) := by
  have e0 : ix1_0 (ix2 p q) = ix2 p q := funext fun a => Fin.ext (by match a with | ⟨0, _⟩ => rfl | ⟨1, _⟩ => rfl)
  have e1 : ix1_1 (ix2 p q) = ix1 p := funext fun a => Fin.ext (by match a with | ⟨0, _⟩ => rfl)
  have e2 : ix1_2 (ix2 p q) = ix1 p := funext fun a => Fin.ext (by match a with | ⟨0, _⟩ => rfl)
  show FloatOps.mulf (Scalar.select (FloatOps.cmpf .ogt (P0 (ix1_0 (ix2 p q))) (Scalar.ofBits (F := Ideal) .f32 0x00000000#32))
      (Scalar.ofBits (F := Ideal) .f32 0x3F800000#32) (Scalar.ofBits (F := Ideal) .f32 0xBF800000#32))
      (FloatOps.divf (multiReduction .add [1] S128 _ 0x00000000#32 reduces_S128x16384_S128 (.inl rfl) rfl (ix1_1 (ix2 p q)))
        (multiReduction .add [1] S128 _ 0x00000000#32 reduces_S128x16384_S128 (.inl rfl) rfl (ix1_2 (ix2 p q)))) = _
  rw [e0, e1, e2, block_abssum P0 reduces_S128x16384_S128 (.inl rfl) rfl p, block_count P0 reduces_S128x16384_S128 (.inl rfl) rfl p]
  simp only [hP]
  rfl

end Cert.KernelIdeal.BlockValue

end
-- ==== Proof.KernelArray.lean ====
/-
  From blocks to the whole array: after the kernel's run the output array is the row-scale function of the input.

  Grid point `t` stages rows 128·t … 128·t + 127 of the input, whole rows, and writes the same rows of the output.
  So block row `p` at point `t` is array row 128·t + p, what the point writes back is the row-scale function read
  through the point's block, and the 32 blocks cover every row of the output.
-/
import proofs.«146996_j66743791780423_1_alg».proof.Proof.KernelBlock

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.RowScale

variable (m : (ℓ : Loc nD τ sig) → Buf (Elt Ideal) ℓ) (ρ : Dev nD → PrngReg)

/-- The input array as the region finds it, and the input block staged at point `t`, at their literal types. -/
abbrev xarr (c : Dev nD) : FVec Ideal S4096x16384 .f32 := V m c main_arg0
abbrev xblk (c : Dev nD) (t : Fin cfg0.N) : FVec Ideal S128x16384 .f32 := iblk m c 0 t

theorem zero_off : (![0, 0] : Fin 2 → Nat) = fun _ => 0 := funext fun a => by fin_cases a <;> rfl

/-- What the body leaves in the output buffer is the block function of the input block: the one store covers the
    buffer, and the load it is computed from is the whole input block. (At any float values.) -/
theorem out_eq {F : FTy → Type} [FloatOps F] (x0 : Vec F S128x16384 .f32) : out0_1 x0 = E1 x0 := by
  have hld : View.ld (Val := Elt F) (e' := .f32) x0 r0_0 = x0 :=
    View.ld_unit_zero (Val := Elt F) (S := S128x16384) (e := .f32) zero_off inb_S128x16384_S128x16384_0_0 x0
  unfold out0_1
  rw [hld]
  exact funext fun y => canon1_eq x0 y

/-- The index maps, decided over the 32 grid points: both windows are at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Every block row of the output is some point's. -/
theorem idx_onto : ∀ q0 : Fin 32, ∃ t : Fin cfg0.N, win0_1.index t = ![q0.val, 0] :=
  (by decide +kernel : ∀ q0 : Fin 32, ∃ t : Fin grid0.N, win0_1.index t = ![q0.val, 0])

/-- The array row that block row `p` of point `t` is. -/
def rowOf (t : Fin cfg0.N) (p : Fin 128) : Fin 4096 :=
  ⟨(win0_1.index t (0 : Fin 2) * 128 + p.val) % 4096, Nat.mod_lt _ (by decide)⟩

theorem rowOf_val (t : Fin cfg0.N) (p : Fin 128) : (rowOf t p).val = win0_1.index t (0 : Fin 2) * 128 + p.val := by
  obtain ⟨-, -, e2, -⟩ := idx_facts t
  have ht : t.val < 32 := lt_of_lt_of_eq t.isLt N_0
  have hp : p.val < 128 := p.isLt
  show (win0_1.index t (0 : Fin 2) * 128 + p.val) % 4096 = _
  omega

/-- The input block at point `t`, entry (p, k), is the input array at row `rowOf t p`, column k. -/
theorem xblk_apply (c : Dev nD) (t : Fin cfg0.N) (p : Fin 128) (k : Fin 16384) :
    xblk m c t (ix2 p k) = xarr m c (ix2 (rowOf t p) k) := by
  obtain ⟨e0, e1, e2, e3⟩ := idx_facts t
  have hr := rowOf_val t p
  show V m c main_arg0 (((cfg0.win 0).blk t).view.emb (ix2 p k)) = V m c main_arg0 (ix2 (rowOf t p) k)
  refine congrArg (V m c main_arg0) (funext fun a => Fin.ext ?_)
  match a with
  | ⟨0, _⟩ => show win0_0.index t (0 : Fin 2) * 128 + 1 * p.val = (rowOf t p).val; omega
  | ⟨1, _⟩ => show win0_0.index t (1 : Fin 2) * 16384 + 1 * k.val = k.val; omega

/-- WHAT POINT `t` WRITES BACK is block `t` of the row-scale function of the input array. -/
theorem flushed_eq (c : Dev nD) (t : Fin cfg0.N) :
    (dats m 0 c).flushed 1 t = ((cfg0.win 1).blk t).view.read (Elt Ideal) (G (xarr m c)) := by
  obtain ⟨e0, e1, e2, e3⟩ := idx_facts t
  refine (flushed1 m c t).trans (funext fun j => ?_)
  obtain ⟨p, q, rfl⟩ : ∃ (p : Fin 128) (q : Fin 16384), j = ix2 p q := ⟨j 0, j 1, eq_ix2 j⟩
  show out0_1 (F := Ideal) (xblk m c t) (ix2 p q) = G (xarr m c) (((cfg0.win 1).blk t).view.emb (ix2 p q))
  refine (congrFun (out_eq (F := Ideal) (xblk m c t)) (ix2 p q)).trans ?_
  refine (BlockValue.block_value (xblk m c t) (xarr m c) (rowOf t) (xblk_apply m c t) p q).trans ?_
  refine congrArg (G (xarr m c)) (funext fun a => Fin.ext ?_)
  have hr := rowOf_val t p
  match a with
  | ⟨0, _⟩ => show (rowOf t p).val = win0_1.index t (0 : Fin 2) * 128 + 1 * p.val; omega
  | ⟨1, _⟩ => show q.val = win0_1.index t (1 : Fin 2) * 16384 + 1 * q.val; omega

/-- An index of the array is in point `t`'s block iff each coordinate is in the block's range on its axis. -/
theorem mem_blk (t : Fin cfg0.N) (i : S4096x16384.Idx) :
    i ∈ ((cfg0.win 1).blk t).view.set ↔ ∀ a : Fin 2, win0_1.index t a * S128x16384.size a ≤ (i a).val
      ∧ (i a).val < win0_1.index t a * S128x16384.size a + S128x16384.size a := by
  show i ∈ ((View.whole main_v0).slice (win0_1.rect t)).set ↔ _
  rw [View.set_slice_whole, Rect.mem_set_unit]
  exact Iff.rfl

/-- The blocks cover the output: row `i 0` is in the block of the point at block row `i 0 / 128`. -/
theorem cover (i : S4096x16384.Idx) : ∃ t : Fin cfg0.N, (cfg0.win 1).flush t = true ∧ i ∈ ((cfg0.win 1).blk t).view.set := by
  have hi0 : (i 0).val < 4096 := (i 0).isLt
  have hi1 : (i 1).val < 16384 := (i 1).isLt
  obtain ⟨t, ht⟩ := idx_onto ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 16384 ≤ (i 1).val ∧ (i 1).val < win0_1.index t (1 : Fin 2) * 16384 + 16384; omega

/-- THE OUTPUT ARRAY after the run is the row-scale function of the input array. -/
theorem final (c : Dev nD) : (dats m 0 c).arrAt 1 cfg0.N = G (xarr m c) :=
  (dats m 0 c).arrAt_eq_of_cover 1 (G (xarr m c)) (fun t _ => flushed_eq m c t) cover

/-- The kernel's run, read: every weakly fair execution ends with the output at the row-scale function of the input and
    the input unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.ArrayValue

end
-- ==== Proof.LibCountSum.lean ====
/-
  Counting by an integer sum and counting by a float sum agree at the ideal values.

  A family of 32-bit words each of which is 0 or 1, indexed by a finite type with fewer than 2^31 members, can be
  counted in two ways: add the words as 32-bit integers (the sum cannot wrap: it is at most the number of indices)
  and read the total as a signed integer turned into a float; or turn each word into a float first and add the floats.
  At the ideal values a float is an extended real and both readings are the exact number of ones, so they are equal.
-/
import Idealize.ShloMosaic.PureOps.Ideal.Laws
import Idealize.ShloMosaic.PureOps.Reduce

noncomputable section

namespace Idealize.ShloMosaic.CountSum

open Idealize.ShloMosaic

/-- The 32-bit sum of a family of words over a finite set is the 32-bit word of the sum of their values. -/
theorem fold_addi_eq_ofNat {K : Type} [DecidableEq K] (g : K → BitVec 32) (s : Finset K) :
    s.fold IntOp.addi 0#32 g = BitVec.ofNat 32 (∑ k ∈ s, (g k).toNat) := by
  induction s using Finset.induction_on with
  | empty => rfl
  | insert a s ha ih =>
    rw [Finset.fold_insert ha, Finset.sum_insert ha, ih, IntOp.addi_eq_add, BitVec.ofNat_add, BitVec.ofNat_toNat,
      BitVec.setWidth_eq]

/-- A 32-bit word below 2^31 read as a signed integer is its value. -/
theorem toInt_of_lt (b : BitVec 32) (hb : b.toNat < 2 ^ 31) : b.toInt = (b.toNat : ℤ) := by
  rw [BitVec.toInt_eq_toNat_cond, if_pos (by omega)]

/-- The extended real of a sum of naturals is the sum of their extended reals. -/
theorem coe_sum_nat {K : Type} [DecidableEq K] (f : K → ℕ) (s : Finset K) :
    ((((∑ k ∈ s, f k : ℕ) : ℤ) : ℝ) : EReal) = ∑ k ∈ s, ((((f k : ℕ) : ℤ) : ℝ) : EReal) := by
  induction s using Finset.induction_on with
  | empty => simp
  | insert a s ha ih =>
    rw [Finset.sum_insert ha, Finset.sum_insert ha, ← ih, Nat.cast_add, Int.cast_add, EReal.coe_add]

/-- THE COUNT: for 0/1 words over fewer than 2^31 indices, the signed reading of their 32-bit sum, as a float, is the
    sum of the words' floats — both are the number of ones, an extended real. -/
theorem sitofp_fold_addi {K : Type} [Fintype K] [DecidableEq K] (g : K → BitVec 32) (hg : ∀ k, (g k).toNat ≤ 1)
    (hK : Fintype.card K < 2 ^ 31) :
    (FloatOps.sitofp (F := Ideal) .f32 (Finset.univ.fold IntOp.addi 0#32 g) : Ideal .f32)
      = ∑ k, (FloatOps.sitofp (F := Ideal) .f32 (g k) : Ideal .f32) := by
  have hsum : ∑ k, (g k).toNat ≤ Fintype.card K := by
    calc ∑ k, (g k).toNat ≤ ∑ _k : K, 1 := Finset.sum_le_sum fun k _ => hg k
      _ = Fintype.card K := by simp
  have hlt : (BitVec.ofNat 32 (∑ k, (g k).toNat)).toNat < 2 ^ 31 := by
    rw [BitVec.toNat_ofNat]; omega
  have hval : (BitVec.ofNat 32 (∑ k, (g k).toNat)).toNat = ∑ k, (g k).toNat := by
    rw [BitVec.toNat_ofNat]; omega
  show (((Finset.univ.fold IntOp.addi 0#32 g).toInt : ℝ) : EReal) = ∑ k, ((((g k).toInt : ℤ) : ℝ) : EReal)
  rw [fold_addi_eq_ofNat, toInt_of_lt _ hlt, hval, coe_sum_nat]
  exact Finset.sum_congr rfl fun k _ => by rw [toInt_of_lt (g k) (by have := hg k; omega)]

/-- The same for one-bit words widened to 32 bits, as a comparison's mask is before it is summed. -/
theorem sitofp_fold_addi_bits {K : Type} [Fintype K] [DecidableEq K] (c : K → BitVec 1) (hK : Fintype.card K < 2 ^ 31) :
    (FloatOps.sitofp (F := Ideal) .f32 (Finset.univ.fold IntOp.addi 0#32 fun k => (c k).setWidth 32) : Ideal .f32)
      = ∑ k, (FloatOps.sitofp (F := Ideal) .f32 ((c k).setWidth 32) : Ideal .f32) :=
  sitofp_fold_addi (fun k => (c k).setWidth 32)
    (fun k => by rw [BitVec.toNat_setWidth]; have := (c k).isLt; omega) hK

end Idealize.ShloMosaic.CountSum

end
-- ==== Proof.RefValue.lean ====
/-
  The reference's result, read one operation at a time, is the row-scale function of its argument.

  Its sum of absolute values over a row is the initial zero plus the exact sum of the kept entries; its count adds the
  mask bits as 32-bit integers along the row (at most 16384 ones, so the integer sum does not wrap) and turns the total
  into a float, which at the ideal values is the float sum of the bits; the quotient is broadcast back along the row and
  multiplied by the signs.
-/
import proofs.«146996_j66743791780423_1_alg».proof.Proof.Gen.ReferenceIdeal.Read
import proofs.«146996_j66743791780423_1_alg».proof.Proof.LibCountSum
import proofs.«146996_j66743791780423_1_alg».proof.Proof.RowScale

noncomputable section

namespace Cert.ReferenceIdeal.RefValue

open Cert.ReferenceIdeal Cert.ReferenceIdeal.Gen Cert.ReferenceIdeal.Read Idealize.ShloMosaic Idealize.ShloMosaic.ValueIdx
open Cert.RowScale

/-- The index over row `j` at column `k`, as the row reduction inserts the column coordinate. -/
theorem lift_eq (h : S4096x16384.Reduces [1] S4096) (j : S4096.Idx) (k : Fin 16384) : h.lift j k = ix2 (j 0) k :=
  funext fun a => Fin.ext (by match a with | ⟨0, _⟩ => rfl | ⟨1, _⟩ => rfl)

/-- The reference's mask bit at an entry is the entry's mask bit. -/
theorem mask_apply (x : (⟨S4096x16384, .f32⟩ : BufTy).Contents (Elt Ideal)) (i : S4096x16384.Idx) :
    val_main_v2 (F := Ideal) x i = nz (x i) := by
  rw [val_main_v2_apply, val_main_v0_apply, val_main_v1_apply, val_main_cst_apply]
  rfl

/-- The reference's row sum of absolute values: the exact sum of the row's kept entries. -/
theorem abssum_eq (x : (⟨S4096x16384, .f32⟩ : BufTy).Contents (Elt Ideal)) (j : S4096.Idx) :
    val_main_v4 (F := Ideal) x j = ∑ k : Fin 16384, kept (x (ix2 (j 0) k)) := by
  rw [val_main_v4_apply, val_main_cst_1_apply]
  refine (congrArg (· + _) Ideal.ofBits_zero_f32).trans ((zero_add _).trans (Finset.sum_congr rfl fun k _ => ?_))
  rw [val_main_v3_apply, mask_apply, val_main_v0_apply, val_main_call0_v1_apply, val_main_call0_v0_apply, val_main_cst_0_apply]
  have e : idx_main_v4 j k = ix2 (j 0) k := funext fun a => Fin.ext (by match a with | ⟨0, _⟩ => rfl | ⟨1, _⟩ => rfl)
  rw [e]
  rfl

/-- The reference's row count: the float of the integer sum of the mask bits is the float sum of the bits. -/
theorem count_eq (x : (⟨S4096x16384, .f32⟩ : BufTy).Contents (Elt Ideal)) (j : S4096.Idx) :
    val_main_v7 (F := Ideal) x j = ∑ k : Fin 16384, unit01 (x (ix2 (j 0) k)) := by
  have hR : S4096x16384.Reduces [1] S4096 := by decide
  have hfun : (val_main_v5 (F := Ideal) x ∘ hR.lift j) = fun k : Fin 16384 => (nz (x (ix2 (j 0) k))).setWidth 32 := by
    funext k
    show val_main_v5 (F := Ideal) x (hR.lift j k) = _
    rw [val_main_v5_apply, mask_apply]
    exact congrArg (fun i => (nz (x i)).setWidth 32) (lift_eq hR j k)
  rw [val_main_v7_apply]
  unfold val_main_v6
  rw [Host.reduce_eq_fold_single IntOp.addi _ _ reducesTo_S4096x16384_S4096_d1 hR h_S_ j, hfun]
  exact CountSum.sitofp_fold_addi_bits (fun k : Fin 16384 => nz (x (ix2 (j 0) k))) (by simp)

/-- THE REFERENCE'S RESULT is the row-scale function of its argument. -/
theorem result_eq (x : (⟨S4096x16384, .f32⟩ : BufTy).Contents (Elt Ideal)) : val_main_v15 (F := Ideal) x = G x := by
  funext i
  rw [val_main_v15_apply, val_main_v12_apply, val_main_v11_apply, val_main_v10_apply, val_main_v9_apply, val_main_cst_2_apply,
    val_main_call1_v0_apply, val_main_cst_3_apply, val_main_call1_v1_apply, val_main_cst_4_apply, val_main_v14_apply,
    val_main_v13_apply, val_main_v8_apply, abssum_eq, count_eq]
  rfl

end Cert.ReferenceIdeal.RefValue

end
-- ==== Proof.lean ====
/-
  The certificate of the row binarization kernel against its jnp reference.

  Both programs replace every row of a [4096, 16384] array by its signs times one scale per row,
      out(r, q) = sgn(x(r, q)) · ( Σ_k |x(r, k)| over the entries with |x(r, k)| > 0 ) / #{k : |x(r, k)| > 0},
  sgn being +1 above zero and −1 elsewhere. The kernel handles 128 whole rows per grid point and counts the nonzero
  entries of a row by adding their mask bits as floats; the reference counts them by adding the bits as 32-bit
  integers and converting the total. At the ideal values both counts are the exact number of nonzero entries (a row has
  16384 entries, far below 2^31, so the integer sum does not wrap), the two sums of absolute values are the same exact
  sum, and quotient, broadcast and product are the same operations on the extended reals: the two results are ONE
  function of the input (`Cert.RowScale.G`). No property of the input beyond its shape is used, so the precondition is
  never opened. The ideal pass rewrote nothing in the kernel, so `preserves` is trivial.
-/
import proofs.«146996_j66743791780423_1_alg».proof.Defs
import proofs.«146996_j66743791780423_1_alg».proof.Proof.Gen.Kernel
import proofs.«146996_j66743791780423_1_alg».proof.Proof.Gen.Kernel.Skeleton
import proofs.«146996_j66743791780423_1_alg».proof.Proof.Gen.Kernel.Launch
import proofs.«146996_j66743791780423_1_alg».proof.Proof.Gen.Kernel.Points
import proofs.«146996_j66743791780423_1_alg».proof.Proof.Gen.Kernel.Frame
import proofs.«146996_j66743791780423_1_alg».proof.Proof.Gen.KernelIdeal
import proofs.«146996_j66743791780423_1_alg».proof.Proof.Gen.KernelIdeal.Skeleton
import proofs.«146996_j66743791780423_1_alg».proof.Proof.Gen.KernelIdeal.Launch
import proofs.«146996_j66743791780423_1_alg».proof.Proof.Gen.KernelIdeal.Points
import proofs.«146996_j66743791780423_1_alg».proof.Proof.Gen.KernelIdeal.Frame
import proofs.«146996_j66743791780423_1_alg».proof.Proof.Gen.ReferenceIdeal
import proofs.«146996_j66743791780423_1_alg».proof.Proof.Gen.Pre_finite_inputs
import proofs.«146996_j66743791780423_1_alg».proof.Proof.Gen.ReferenceIdeal.Run
import proofs.«146996_j66743791780423_1_alg».proof.Proof.Gen.ReferenceIdeal.Read
import proofs.«146996_j66743791780423_1_alg».proof.Proof.KernelArray
import proofs.«146996_j66743791780423_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its generated run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories that agree on the input, both end with the output at the row-scale
    function of the input: the kernel by its run read block by block, the reference by its run read one operation at
    a time. -/
theorem algebraic : Cert.algebraic_KernelIdeal_ReferenceIdeal := by
  intro m ρ m' ρ' _ hagree
  refine ⟨fun c => Cert.RowScale.G (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
